-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096 .f32) (main_arg8 : FVec F S4096x1024 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096x1024 .f32) (main_arg5 : FVec F S1024 .f32) (main_arg6 : FVec F S4096 .f32) (main_arg7 : FVec F S4096 .f32) (main_arg8 : FVec F S4096x1024 .f32) (main_arg9 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S2x4096x4096 .f32) (main_arg1 : FVec F S2x4096x4096 .f32) (main_arg2 : FVec F S4096 .f32) (main_arg3 : FVec F S4096 .f32) (main_arg4 : FVec F S4096x1024 .f32) (main_arg5 : FVec F S1024 .f32) (main_arg6 : FVec F S4096 .f32) (main_arg7 : FVec F S4096 .f32) (main_arg8 : FVec F S4096x1024 .f32) (main_arg9 : FVec F S1024 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S2x4096x4096 : Shape := ⟨3, ![2, 4096, 4096]⟩
abbrev S4096 : Shape := ⟨1, ![4096]⟩
abbrev S4096x1024 : Shape := ⟨2, ![4096, 1024]⟩
abbrev S1024 : Shape := ⟨1, ![1024]⟩
abbrev S8192x4096 : Shape := ⟨2, ![8192, 4096]⟩
abbrev S1x4096 : Shape := ⟨2, ![1, 4096]⟩
abbrev S1x1024 : Shape := ⟨2, ![1, 1024]⟩
abbrev S8192x1024 : Shape := ⟨2, ![8192, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S2x4096x1024 : Shape := ⟨3, ![2, 4096, 1024]⟩

abbrev nBuf : Space → Nat
  | .hbm => 24
  | .vmem => 16
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S8192x4096, .f32⟩
  | .hbm, ⟨11, _⟩ => ⟨S4096x1024, .bf16⟩
  | .hbm, ⟨12, _⟩ => ⟨S1x4096, .f32⟩
  | .hbm, ⟨13, _⟩ => ⟨S1x4096, .f32⟩
  | .hbm, ⟨14, _⟩ => ⟨S1x1024, .f32⟩
  | .hbm, ⟨15, _⟩ => ⟨S8192x1024, .f32⟩
  | .hbm, ⟨16, _⟩ => ⟨S2x4096x1024, .f32⟩
  | .hbm, ⟨17, _⟩ => ⟨S8192x4096, .f32⟩
  | .hbm, ⟨18, _⟩ => ⟨S4096x1024, .bf16⟩
  | .hbm, ⟨19, _⟩ => ⟨S1x4096, .f32⟩
  | .hbm, ⟨20, _⟩ => ⟨S1x4096, .f32⟩
  | .hbm, ⟨21, _⟩ => ⟨S1x1024, .f32⟩
  | .hbm, ⟨22, _⟩ => ⟨S8192x1024, .f32⟩
  | .hbm, ⟨23, _⟩ => ⟨S2x4096x1024, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S1x4096, .f32⟩
  | .local _ .vmem, ⟨12, _⟩ => ⟨S4096x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S2x4096x4096_S8192x4096 : S2x4096x4096.ShapeCasts S8192x4096
  bitsLt_bf16_f32 : FTy.bits .bf16 < FTy.bits .f32
  shapeCasts_S4096_S1x4096 : S4096.ShapeCasts S1x4096
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x1024_S2x4096x1024 : S8192x1024.ShapeCasts S2x4096x1024
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x1024.size a
  hwx1_5 : ∀ i : grid1.Coords, EltTy.bits .f32 = 32 ∨ (Rect.block (s := S8192x1024) S256x1024.size (cc1_transform_5 i) (hinb1_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x1024 : Shape := ⟨3, ![2, 4096, 1024]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S1x1x4096, .f32⟩
  | .hbm, ⟨34, _⟩ => ⟨S2x4096x4096, .f32⟩
  | .hbm, ⟨35, _⟩ => ⟨S2x4096x4096, .f32⟩
  | .hbm, ⟨36, _⟩ => ⟨S1x1x4096, .f32⟩
  | .hbm, ⟨37, _⟩ => ⟨S2x4096x4096, .f32⟩
  | .hbm, ⟨38, _⟩ => ⟨S2x4096x4096, .f32⟩
  | .hbm, ⟨39, _⟩ => ⟨S2x4096x1024, .f32⟩
  | .hbm, ⟨40, _⟩ => ⟨S1x1x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x4096, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S2x4096x4096, .f32⟩
  | .hbm, ⟨50, _⟩ => ⟨S2x4096x4096, .f32⟩
  | .hbm, ⟨51, _⟩ => ⟨S2x4096x4096, .f32⟩
  | .hbm, ⟨52, _⟩ => ⟨S_, .f32⟩
  | .hbm, ⟨53, _⟩ => ⟨S2x4096, .f32⟩
  | .hbm, ⟨54, _⟩ => ⟨S2x4096x1, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S2x4096x4096, .f32⟩
  | .hbm, ⟨59, _⟩ => ⟨S2x4096x4096, .f32⟩
  | .hbm, ⟨60, _⟩ => ⟨S_, .f32⟩
  | .hbm, ⟨61, _⟩ => ⟨S2x4096x1, .f32⟩
  | .hbm, ⟨62, _⟩ => ⟨S2x4096x1, .f32⟩
  | .hbm, ⟨63, _⟩ => ⟨S2x4096x1, .f32⟩
  | .hbm, ⟨64, _⟩ => ⟨S2x4096x4096, .f32⟩
  | .hbm, ⟨65, _⟩ => ⟨S2x4096x4096, .f32⟩
  | .hbm, ⟨66, _⟩ => ⟨S1x1x4096, .f32⟩
  | .hbm, ⟨67, _⟩ => ⟨S2x4096x4096, .f32⟩
  | .hbm, ⟨68, _⟩ => ⟨S2x4096x4096, .f32⟩
  | .hbm, ⟨69, _⟩ => ⟨S1x1x4096, .f32⟩
  | .hbm, ⟨70, _⟩ => ⟨S2x4096x4096, .f32⟩
  | .hbm, ⟨71, _⟩ => ⟨S2x4096x4096, .f32⟩
  | .hbm, ⟨72, _⟩ => ⟨S2x4096x1024, .f32⟩
  | .hbm, ⟨73, _⟩ => ⟨S1x1x1024, .f32⟩
  | .hbm, ⟨74, _⟩ => ⟨S2x4096x1024, .f32⟩
  | .hbm, ⟨75, _⟩ => ⟨S2x4096x1024, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  reducesTo_S2x4096x4096_S2x4096_d2 : S2x4096x4096.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x4096_0_1_2 : S2x4096x1.BroadcastsInDim S2x4096x4096 (![0, 1, 2] : Fin 3 → Fin S2x4096x4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  dot_S2x4096x4096_S4096x1024_S2x4096x1024_2_0_01_1_n_n_wf : DotDims.WF S2x4096x4096 S4096x1024 S2x4096x1024 [2] [0] [0, 1] [1] [] []

variable [Facts₀]

def dot_S2x4096x4096_S4096x1024_S2x4096x1024_2_0_01_1_n_n : DotDims S2x4096x4096 S4096x1024 S2x4096x1024 where
  lhsContracting := [2]
  rhsContracting := [0]
  lhsNonContracting := [0, 1]
  rhsNonContracting := [1]
  lhsBatch := []
  rhsBatch := []
  wf := dot_S2x4096x4096_S4096x1024_S2x4096x1024_2_0_01_1_n_n_wf

class Facts : Prop extends Facts₀ where

variable [Facts]
-- ==== Proof.NormProject.lean ====
/-
  The function both programs compute, written once over plain index types.

  For one row x of 4096 features: the mean is (Σ_h x_h) / 4096, the variance is (Σ_h (x_h - mean)²) / 4096, the
  normalised row is (x_h - mean) · rsqrt(variance + ε) · scale_h + shift_h, and the projected row is
  Σ_h normalised_h · W_{h,q} + b_q.  The divisor 4096 and ε are kept as the binary words both programs print, so
  neither is ever evaluated.  Nothing here needs finiteness: the two programs apply the same operations in the same
  order, and only the arrangement of the rows (8192 × · against 2 × 4096 × ·) differs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.NormProject

open Idealize.ShloMosaic Idealize.ShloMosaic.ValueIdx

/-- The feature count, as the float word both programs divide by. -/
def nFeat : EReal := Ideal.ofBits .f32 0x45800000#32
/-- The variance offset, as the float word both programs add. -/
def eps : EReal := Ideal.ofBits .f32 0x358637BD#32

/-- A row's mean. -/
def mean (x : Fin 4096 → EReal) : EReal := Ideal.div (∑ h : Fin 4096, x h) nFeat
/-- A row's variance about its mean. -/
def var (x : Fin 4096 → EReal) : EReal := Ideal.div (∑ h : Fin 4096, (x h - mean x) * (x h - mean x)) nFeat
/-- The normalised row, scaled and shifted feature by feature. -/
def normed (x sc sh : Fin 4096 → EReal) (h : Fin 4096) : EReal :=
  (x h - mean x) * Ideal.rsqrt (var x + eps) * sc h + sh h
/-- The normalised row projected onto output feature `q`, plus the output bias. -/
def proj (x sc sh : Fin 4096 → EReal) (W : Fin 4096 → Fin 1024 → EReal) (b : Fin 1024 → EReal) (q : Fin 1024) : EReal :=
  (∑ h : Fin 4096, normed x sc sh h * W h q) + b q

/-- The projection of every row of an `R × 4096` array, the parameters given as one-row arrays. -/
def rows2 {R : ℕ} (X : (⟨2, ![R, 4096]⟩ : Shape).Idx → EReal) (sc sh : (⟨2, ![1, 4096]⟩ : Shape).Idx → EReal)
    (W : (⟨2, ![4096, 1024]⟩ : Shape).Idx → EReal) (b : (⟨2, ![1, 1024]⟩ : Shape).Idx → EReal) :
    (⟨2, ![R, 1024]⟩ : Shape).Idx → EReal := fun j =>
  proj (fun h => X (ix2 (j 0) h)) (fun h => sc (ix2 (0 : Fin 1) h)) (fun h => sh (ix2 (0 : Fin 1) h))
    (fun h q => W (ix2 h q)) (fun q => b (ix2 (0 : Fin 1) q)) (j 1)

/-- The same over a `2 × 4096 × 4096` array, the parameters given as vectors. -/
def rows3 (X : (⟨3, ![2, 4096, 4096]⟩ : Shape).Idx → EReal) (sc sh : (⟨1, ![4096]⟩ : Shape).Idx → EReal)
    (W : (⟨2, ![4096, 1024]⟩ : Shape).Idx → EReal) (b : (⟨1, ![1024]⟩ : Shape).Idx → EReal) :
    (⟨3, ![2, 4096, 1024]⟩ : Shape).Idx → EReal := fun i =>
  proj (fun h => X (ix3 (i 0) (i 1) h)) (fun h => sc (ix1 h)) (fun h => sh (ix1 h))
    (fun h q => W (ix2 h q)) (fun q => b (ix1 q)) (i 2)

/-! ## Two layout readings: a column made of a vector, and a column spread over the lanes -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two reshapes between `8192` rows and `2 × 4096` rows -/

/-- Row `4096·b + s` of the flattened array is row `(b, s)` of the original. -/
theorem flatten_apply {α : Type} (X : (⟨3, ![2, 4096, 4096]⟩ : Shape).Idx → α)
    (h : (⟨3, ![2, 4096, 4096]⟩ : Shape).ShapeCasts ⟨2, ![8192, 4096]⟩) (r : Fin 8192) (k : Fin 4096)
    (b : Fin 2) (s : Fin 4096) (hr : r.val = b.val * 4096 + s.val) :
    shapeCast ⟨2, ![8192, 4096]⟩ X h (ix2 r k) = X (ix3 b s k) :=
  shapeCast_apply X h _ _ (by
    rw [Shape.rowMajor_val_two, Shape.rowMajor_val_three]
    show (b.val * 4096 + s.val) * 4096 + k.val = r.val * 4096 + k.val
    rw [hr])

/-- Entry `(b, s, q)` of the unflattened result is entry `(4096·b + s, q)` of the flat one. -/
theorem unflatten_apply {α : Type} (Y : (⟨2, ![8192, 1024]⟩ : Shape).Idx → α)
    (h : (⟨2, ![8192, 1024]⟩ : Shape).ShapeCasts ⟨3, ![2, 4096, 1024]⟩) (b : Fin 2) (s : Fin 4096) (q : Fin 1024)
    (r : Fin 8192) (hr : r.val = b.val * 4096 + s.val) :
    shapeCast ⟨3, ![2, 4096, 1024]⟩ Y h (ix3 b s q) = Y (ix2 r q) :=
  shapeCast_apply Y h _ _ (by
    rw [Shape.rowMajor_val_three, Shape.rowMajor_val_two]
    show r.val * 1024 + q.val = (b.val * 4096 + s.val) * 1024 + q.val
    rw [hr])

/-- The flat form over reshaped operands, reshaped back, is the `2 × 4096`-row form over the operands themselves:
    every row is carried to itself and the parameter rows are the parameter vectors. -/
theorem unflatten_rows2 (X : (⟨3, ![2, 4096, 4096]⟩ : Shape).Idx → EReal) (sc sh : (⟨1, ![4096]⟩ : Shape).Idx → EReal)
    (W : (⟨2, ![4096, 1024]⟩ : Shape).Idx → EReal) (b : (⟨1, ![1024]⟩ : Shape).Idx → EReal)
    (hX : (⟨3, ![2, 4096, 4096]⟩ : Shape).ShapeCasts ⟨2, ![8192, 4096]⟩)
    (hs : (⟨1, ![4096]⟩ : Shape).ShapeCasts ⟨2, ![1, 4096]⟩) (hb : (⟨1, ![1024]⟩ : Shape).ShapeCasts ⟨2, ![1, 1024]⟩)
    (hY : (⟨2, ![8192, 1024]⟩ : Shape).ShapeCasts ⟨3, ![2, 4096, 1024]⟩) :
    shapeCast ⟨3, ![2, 4096, 1024]⟩
        (rows2 (R := 8192) (shapeCast ⟨2, ![8192, 4096]⟩ X hX) (shapeCast ⟨2, ![1, 4096]⟩ sc hs)
          (shapeCast ⟨2, ![1, 4096]⟩ sh hs) W (shapeCast ⟨2, ![1, 1024]⟩ b hb)) hY
      = rows3 X sc sh W b := by
  funext i
  obtain ⟨bb, s, q, rfl⟩ : ∃ (bb : Fin 2) (s : Fin 4096) (q : Fin 1024), i = ix3 bb s q := ⟨i 0, i 1, i 2, eq_ix3 i⟩
  have hlt : bb.val * 4096 + s.val < 8192 := by have := bb.isLt; have := s.isLt; omega
  rw [unflatten_apply _ hY bb s q ⟨bb.val * 4096 + s.val, hlt⟩ rfl]
  show proj (fun h => shapeCast ⟨2, ![8192, 4096]⟩ X hX (ix2 ⟨bb.val * 4096 + s.val, hlt⟩ h))
      (fun h => shapeCast ⟨2, ![1, 4096]⟩ sc hs (ix2 (0 : Fin 1) h)) (fun h => shapeCast ⟨2, ![1, 4096]⟩ sh hs (ix2 (0 : Fin 1) h))
      (fun h q => W (ix2 h q)) (fun q => shapeCast ⟨2, ![1, 1024]⟩ b hb (ix2 (0 : Fin 1) q)) q
    = proj (fun h => X (ix3 bb s h)) (fun h => sc (ix1 h)) (fun h => sh (ix1 h)) (fun h q => W (ix2 h q)) (fun q => b (ix1 q)) q
  have e0 : (fun h : Fin 4096 => shapeCast ⟨2, ![8192, 4096]⟩ X hX (ix2 ⟨bb.val * 4096 + s.val, hlt⟩ h)) = fun h => X (ix3 bb s h) :=
    funext fun h => flatten_apply X hX _ h bb s rfl
  have e1 : (fun h : Fin 4096 => shapeCast ⟨2, ![1, 4096]⟩ sc hs (ix2 (0 : Fin 1) h)) = fun h => sc (ix1 h) :=
    funext fun h => shapeCast_a_1a_apply sc hs 0 h
  have e2 : (fun h : Fin 4096 => shapeCast ⟨2, ![1, 4096]⟩ sh hs (ix2 (0 : Fin 1) h)) = fun h => sh (ix1 h) :=
    funext fun h => shapeCast_a_1a_apply sh hs 0 h
  have e3 : (fun q : Fin 1024 => shapeCast ⟨2, ![1, 1024]⟩ b hb (ix2 (0 : Fin 1) q)) = fun q => b (ix1 q) :=
    funext fun q => shapeCast_a_1a_apply b hb 0 q
  rw [e0, e1, e2, e3]

end Cert.NormProject

end
-- ==== Proof.RefRead.lean ====
/-
  The reference's two results read at an index.  Row (b, s) of the input is averaged over its 4096 features (a sum
  from the zero initial value, divided by 4096), centred, its squared deviations averaged the same way, and the
  normalised, scaled and shifted row is contracted with the weight's column q and the bias added: entry (b, s, q) of
  each result is the projection of row (b, s).  The second result is the same function of the second group of
  arguments.
-/
import proofs.«138055_j43250320671027_1_alg».proof.Proof.Gen.ReferenceIdeal.Run
import proofs.«138055_j43250320671027_1_alg».proof.Proof.Gen.ReferenceIdeal.Read
import proofs.«138055_j43250320671027_1_alg».proof.Proof.NormProject

noncomputable section

namespace Cert.ReferenceIdeal.RefValue

open Idealize.ShloMosaic Idealize.ShloMosaic.ValueIdx Cert.ReferenceIdeal Cert.ReferenceIdeal.Gen Cert.ReferenceIdeal.Read
open Cert.NormProject

variable (x0 : (⟨S2x4096x4096, .f32⟩ : BufTy).Contents (Elt Ideal))

/-- The row of the input that entry `(b, s, ·)` depends on. -/
abbrev row (b : Fin 2) (s : Fin 4096) : Fin 4096 → EReal := fun h => x0 (ix3 b s h)

/-- The keepdims mean at `(b, s)`. -/
theorem mean_at (b : Fin 2) (s : Fin 4096) (u : Fin 1) :
    val_main_v3 (F := Ideal) x0 (ix3 b s u) = mean (row x0 b s) := by
  rw [val_main_v3_apply, val_main_v1_apply, val_main_v2_apply, val_main_v0_apply, val_main_cst_0_apply, val_main_cst_apply]
  have e : ∀ k : Fin 4096, idx_main_v0 (idx_main_v1 (ix3 b s u)) k = ix3 b s k := fun k => funext fun a => by
    match a with
    | ⟨0, _⟩ => rfl
    | ⟨1, _⟩ => rfl
    | ⟨2, _⟩ => rfl
  simp only [e, Ideal.hostDivf_def, Ideal.ofBits_def, Ideal.ofBits_zero_f32, zero_add]
  rfl

/-- The centred entry, as the variance's summand reads it. -/
theorem centred_at (b : Fin 2) (s : Fin 4096) (h : Fin 4096) :
    val_main_v5 (F := Ideal) x0 (ix3 b s h) = x0 (ix3 b s h) - mean (row x0 b s) := by
  rw [val_main_v5_apply, val_main_v4_apply]
  have e : idx_main_v4 (ix3 b s h) = ix3 b s (0 : Fin 1) := funext fun a => by
    match a with
    | ⟨0, _⟩ => rfl
    | ⟨1, _⟩ => rfl
    | ⟨2, _⟩ => rfl
  rw [e, mean_at]
  rfl

/-- The centred entry, as the normalisation reads it (the same mean broadcast a second time). -/
theorem centred_at' (b : Fin 2) (s : Fin 4096) (h : Fin 4096) :
    val_main_v12 (F := Ideal) x0 (ix3 b s h) = x0 (ix3 b s h) - mean (row x0 b s) := by
  rw [val_main_v12_apply, val_main_v11_apply]
  have e : idx_main_v11 (ix3 b s h) = ix3 b s (0 : Fin 1) := funext fun a => by
    match a with
    | ⟨0, _⟩ => rfl
    | ⟨1, _⟩ => rfl
    | ⟨2, _⟩ => rfl
  rw [e, mean_at]
  rfl

/-- The keepdims variance at `(b, s)`. -/
theorem var_at (b : Fin 2) (s : Fin 4096) (u : Fin 1) :
    val_main_v10 (F := Ideal) x0 (ix3 b s u) = var (row x0 b s) := by
  rw [val_main_v10_apply, val_main_v8_apply, val_main_v9_apply, val_main_v7_apply, val_main_cst_2_apply, val_main_cst_1_apply]
  have e : ∀ k : Fin 4096, idx_main_v7 (idx_main_v8 (ix3 b s u)) k = ix3 b s k := fun k => funext fun a => by
    match a with
    | ⟨0, _⟩ => rfl
    | ⟨1, _⟩ => rfl
    | ⟨2, _⟩ => rfl
  simp only [e, val_main_v6_apply, centred_at, Ideal.hostDivf_def, Ideal.mulf_def, Ideal.ofBits_def, Ideal.ofBits_zero_f32, zero_add]
  rfl

/-- The keepdims reciprocal root of the offset variance at `(b, s)`. -/
theorem rsqrt_at (b : Fin 2) (s : Fin 4096) (u : Fin 1) :
    val_main_v15 (F := Ideal) x0 (ix3 b s u) = Ideal.rsqrt (var (row x0 b s) + eps) := by
  rw [val_main_v15_apply, val_main_v14_apply, val_main_v13_apply, val_main_cst_3_apply, var_at]
  rfl

variable (x2 x3 : (⟨S4096, .f32⟩ : BufTy).Contents (Elt Ideal))

/-- The normalised, scaled and shifted entry at `(b, s, h)`. -/
theorem normed_at (b : Fin 2) (s : Fin 4096) (h : Fin 4096) :
    val_main_v23 (F := Ideal) x0 x2 x3 (ix3 b s h)
      = normed (row x0 b s) (fun h => x2 (ix1 h)) (fun h => x3 (ix1 h)) h := by
  rw [val_main_v23_apply, val_main_v20_apply, val_main_v22_apply, val_main_v21_apply, val_main_v17_apply,
    val_main_v19_apply, val_main_v18_apply, val_main_v16_apply, centred_at']
  have e16 : idx_main_v16 (ix3 b s h) = ix3 b s (0 : Fin 1) := funext fun a => by
    match a with
    | ⟨0, _⟩ => rfl
    | ⟨1, _⟩ => rfl
    | ⟨2, _⟩ => rfl
  have e18 : idx_main_v18 (idx_main_v19 (ix3 b s h)) = ix1 h := funext fun a => by
    match a with
    | ⟨0, _⟩ => rfl
  have e21 : idx_main_v21 (idx_main_v22 (ix3 b s h)) = ix1 h := funext fun a => by
    match a with
    | ⟨0, _⟩ => rfl
  rw [e16, e18, e21, rsqrt_at]
  rfl

variable (x4 : (⟨S4096x1024, .f32⟩ : BufTy).Contents (Elt Ideal)) (x5 : (⟨S1024, .f32⟩ : BufTy).Contents (Elt Ideal))

/-- The first result is the projection of every row of the first input. -/
theorem result_eq : val_main_v27 (F := Ideal) x0 x2 x3 x4 x5 = rows3 x0 x2 x3 x4 x5 := by
  funext i
  obtain ⟨b, s, q, rfl⟩ : ∃ (b : Fin 2) (s : Fin 4096) (q : Fin 1024), i = ix3 b s q := ⟨i 0, i 1, i 2, eq_ix3 i⟩
  rw [val_main_v27_apply, val_main_v24_apply, val_main_v26_apply, val_main_v25_apply]
  have el : ∀ k : Fin 4096, lidx_main_v24 (ix3 b s q) k = ix3 b s k := fun k => funext fun a => by
    match a with
    | ⟨0, _⟩ => rfl
    | ⟨1, _⟩ => rfl
    | ⟨2, _⟩ => rfl
  have er : ∀ k : Fin 4096, ridx_main_v24 (ix3 b s q) k = ix2 k q := fun k => funext fun a => by
    match a with
    | ⟨0, _⟩ => rfl
    | ⟨1, _⟩ => rfl
  have e25 : idx_main_v25 (idx_main_v26 (ix3 b s q)) = ix1 q := funext fun a => by
    match a with
    | ⟨0, _⟩ => rfl
  simp only [el, er, e25, normed_at]
  rfl

/-- The second result is the same function of the second group of arguments: its operations are the first's. -/
theorem result_eq' (x1 : (⟨S2x4096x4096, .f32⟩ : BufTy).Contents (Elt Ideal)) (x6 x7 : (⟨S4096, .f32⟩ : BufTy).Contents (Elt Ideal))
    (x8 : (⟨S4096x1024, .f32⟩ : BufTy).Contents (Elt Ideal)) (x9 : (⟨S1024, .f32⟩ : BufTy).Contents (Elt Ideal)) :
    val_main_v55 (F := Ideal) x1 x6 x7 x8 x9 = rows3 x1 x6 x7 x8 x9 :=
  (show val_main_v55 (F := Ideal) x1 x6 x7 x8 x9 = val_main_v27 (F := Ideal) x1 x6 x7 x8 x9 from rfl).trans
    (result_eq x1 x6 x7 x8 x9)

end Cert.ReferenceIdeal.RefValue

end
-- ==== Proof.BlockValue.lean ====
/-
  What one grid point's body writes, read at an index: row p of the 256-row block is normalised over its 4096
  features and projected, so entry (p, q) of the stored block is the projection of row p onto output feature q.

  The lane sums become sums over the feature index, the keepdims columns and their spreading over the lanes are read
  back at (p, ·), the bf16 rounding of the normalised block is the identity on extended reals, and the matrix product
  into a zero accumulator is the plain sum over the contracted feature index.
-/
import proofs.«138055_j43250320671027_1_alg».proof.Proof.Gen.KernelIdeal.Skeleton
import proofs.«138055_j43250320671027_1_alg».proof.Proof.NormProject
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Idealize.ShloMosaic Idealize.ShloMosaic.ValueIdx Cert.KernelIdeal Cert.KernelIdeal.Gen Cert.NormProject

/-! ## The non-pointwise operations of the body, each read at an index -/

/-- A lane sum of a 256 × 4096 block, at row `p`: the sum over the feature index. -/
theorem laneSum (v : FVec Ideal S256x4096 .f32) (hr : S256x4096.Reduces [1] S256) (hφ : FTy.f32 = FTy.f32 ∨ FTy.f32 = FTy.bf16)
    (hacc : (0x00000000#32 : BitVec 32) = 0x00000000#32) (p : Fin 256) :
    multiReduction .add [1] S256 v 0x00000000#32 hr hφ hacc (ix1 p) = ∑ k : Fin 4096, v (ix2 p k) :=
  (Ideal.multiReduction_add_single v _ hr hφ hacc (ix1 p)).trans
    (Finset.sum_congr rfl fun k _ => congrArg v (funext fun a => Fin.ext (by
      match a with
      | ⟨0, _⟩ => rfl
      | ⟨1, _⟩ => rfl)))

/-- The reciprocal square root of a vector, entry by entry. -/
theorem rsqrt_apply {s : Shape} (v : FVec Ideal s .f32) (i : s.Idx) : rsqrt v i = Ideal.rsqrt (v i) := rfl

/-- The per-row vector as a keepdims column. -/
theorem column (v : S256.Idx → EReal) (h : S256.ShapeCasts S256x1) (p : Fin 256) (u : Fin 1) :
    shapeCast S256x1 v h (ix2 p u) = v (ix1 p) := shapeCast_a_a1_apply v h p u

/-- A keepdims column spread over the 4096 lanes. -/
theorem spread (v : S256x1.Idx → EReal) (h : S256x1.Broadcasts S256x4096) (p : Fin 256) (k : Fin 4096) :
    broadcastTo S256x4096 v h (ix2 p k) = v (ix2 p (0 : Fin 1)) := broadcastTo_a1_ab_apply v h p k

/-- A one-row parameter spread over the 256 rows, 4096 wide. -/
theorem rowSpread (v : S1x4096.Idx → EReal) (h : S1x4096.Broadcasts S256x4096) (p : Fin 256) (k : Fin 4096) :
    broadcastTo S256x4096 v h (ix2 p k) = v (ix2 (0 : Fin 1) k) := broadcastTo_1b_ab_apply v h p k

/-- The one-row output bias spread over the 256 rows. -/
theorem biasSpread (v : S1x1024.Idx → EReal) (h : S1x1024.Broadcasts S256x1024) (p : Fin 256) (q : Fin 1024) :
    broadcastTo S256x1024 v h (ix2 p q) = v (ix2 (0 : Fin 1) q) := broadcastTo_1b_ab_apply v h p q

/-! ## The matrix product at an index -/

theorem lhs_axis0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_axis1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_axis0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_axis1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product of a 256 × 4096 block with the 4096 × 1024 weight into a zero accumulator, at `(p, q)`: the sum over
    the feature index of row `p` times column `q`. -/
theorem product (L : FVec Ideal S256x4096 .bf16) (Rm : FVec Ideal S4096x1024 .bf16) (p : Fin 256) (q : Fin 1024) :
    matmul dot_S256x4096_S4096x1024_S256x1024_1_0_0_1_n_n none L Rm (constant (F := Ideal) S256x1024 .f32 0x00000000#32) (ix2 p q)
      = ∑ k : Fin 4096, L (ix2 p k) * Rm (ix2 k q) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p q) ((ValueIdx.contrEquiv1 dot_S256x4096_S4096x1024_S256x1024_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S256x4096_S4096x1024_S256x1024_1_0_0_1_n_n.rhsIdx (ix2 p q) ((ValueIdx.contrEquiv1 dot_S256x4096_S4096x1024_S256x1024_1_0_0_1_n_n 4096 rfl rfl).symm k) = ix2 k q := funext fun a => Fin.ext (by
    match a with
    | ⟨0, _⟩ => exact (rhs_axis0 _ _).trans hk
    | ⟨1, _⟩ => exact rhs_axis1 _ _)
  rw [el, er]

/-! ## The payload -/

/-- Entry `(p, q)` of what the body stores is the projection of row `p` of the loaded block. -/
theorem payload_apply (v0 : Vec Ideal S256x4096 .f32) (v18 v22 : Vec Ideal S1x4096 .f32) (v27 : Vec Ideal S4096x1024 .bf16)
    (v30 : Vec Ideal S1x1024 .f32) (p : Fin 256) (q : Fin 1024) :
    k0_pay1 (F := Ideal) v0 v18 v22 v27 v30 (ix2 p q)
      = proj (fun h => v0 (ix2 p h)) (fun h => v18 (ix2 (0 : Fin 1) h)) (fun h => v22 (ix2 (0 : Fin 1) h))
          (fun h q => v27 (ix2 h q)) (fun q => v30 (ix2 (0 : Fin 1) q)) q := by
  unfold k0_pay1
  dsimp only
  simp only [addf_apply, product, truncf_apply, mulf_apply, subf_apply, divf_apply, shapeCast_self, spread, rowSpread,
    biasSpread, column, broadcast_apply, rsqrt_apply]
  -- the mean's lane sum, then the variance's, then the means inside the variance's summand
  rw [laneSum v0, laneSum]
  simp only [mulf_apply, subf_apply, divf_apply, spread, column, broadcast_apply]
  rw [laneSum v0]
  rfl

/-- The second call's body is the same function of its loads, so its stored entry is the same projection. -/
theorem payload1_apply (v0 : Vec Ideal S256x4096 .f32) (v18 v22 : Vec Ideal S1x4096 .f32) (v27 : Vec Ideal S4096x1024 .bf16)
    (v30 : Vec Ideal S1x1024 .f32) (p : Fin 256) (q : Fin 1024) :
    k1_pay1 (F := Ideal) v0 v18 v22 v27 v30 (ix2 p q)
      = proj (fun h => v0 (ix2 p h)) (fun h => v18 (ix2 (0 : Fin 1) h)) (fun h => v22 (ix2 (0 : Fin 1) h))
          (fun h q => v27 (ix2 h q)) (fun q => v30 (ix2 (0 : Fin 1) q)) q :=
  (show k1_pay1 (F := Ideal) v0 v18 v22 v27 v30 (ix2 p q) = k0_pay1 (F := Ideal) v0 v18 v22 v27 v30 (ix2 p q) from rfl).trans
    (payload_apply v0 v18 v22 v27 v30 p q)

end Cert.KernelIdeal.Block

end
-- ==== Proof.Region0Value.lean ====
/-
  The first call's output array after its 32 grid points.  Point t loads rows 256·t … 256·t + 255 of the flattened
  input (all 4096 features) and the whole parameter arrays, and writes rows 256·t … 256·t + 255 of the output; the
  32 blocks tile the 8192 rows.  So the array ends as the row-wise projection of the arrays the region was entered
  with, whatever those are.
-/
import proofs.«138055_j43250320671027_1_alg».proof.Proof.Gen.KernelIdeal.Frame
import proofs.«138055_j43250320671027_1_alg».proof.Proof.BlockValue

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.NormProject Cert.KernelIdeal.Block

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the output move one block of rows per point and stay at
    column block 0; the four parameter windows stay at block (0, 0). -/
theorem index_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ t.val < 32 :=
  (by decide +kernel : ∀ t : Fin grid0.N, _)

/-! ## Each window's block read where the arrays hold it -/

/-- Row `p` of the input block at point `t` is row `256·t + p` of the input array. -/
theorem read_input (c : Dev nD) (t : Fin cfg0.N) (p : Fin 256) (h : Fin 4096) (r : Fin 8192) (hr : r.val = t.val * 256 + p.val) :
    iblk0 V c 0 t (ix2 p h) = V c main_v0 (ix2 r h) := by
  show V c main_v0 (((cfg0.win 0).blk t).view.emb (ix2 p h)) = V c main_v0 (ix2 r h)
  refine congrArg (V c main_v0) (funext fun a => Fin.ext ?_)
  obtain ⟨e0, e1, -⟩ := index_facts t
  match a with
  | ⟨0, _⟩ => show win0_0.index t (0 : Fin 2) * 256 + 1 * p.val = r.val; omega
  | ⟨1, _⟩ => show win0_0.index t (1 : Fin 2) * 4096 + 1 * h.val = h.val; omega

/-- The scale window's block is the whole one-row scale array. -/
theorem read_scale (c : Dev nD) (t : Fin cfg0.N) (h : Fin 4096) :
    iblk0 V c 1 t (ix2 (0 : Fin 1) h) = V c main_v2 (ix2 (0 : Fin 1) h) := by
  show V c main_v2 (((cfg0.win 1).blk t).view.emb (ix2 (0 : Fin 1) h)) = V c main_v2 (ix2 (0 : Fin 1) h)
  refine congrArg (V c main_v2) (funext fun a => Fin.ext ?_)
  obtain ⟨-, -, -, -, e0, e1, -⟩ := index_facts t
  match a with
  | ⟨0, _⟩ => show win0_1.index t (0 : Fin 2) * 1 + 1 * 0 = 0; omega
  | ⟨1, _⟩ => show win0_1.index t (1 : Fin 2) * 4096 + 1 * h.val = h.val; omega

/-- The shift window's block is the whole one-row shift array. -/
theorem read_shift (c : Dev nD) (t : Fin cfg0.N) (h : Fin 4096) :
    iblk0 V c 2 t (ix2 (0 : Fin 1) h) = V c main_v3 (ix2 (0 : Fin 1) h) := by
  show V c main_v3 (((cfg0.win 2).blk t).view.emb (ix2 (0 : Fin 1) h)) = V c main_v3 (ix2 (0 : Fin 1) h)
  refine congrArg (V c main_v3) (funext fun a => Fin.ext ?_)
  obtain ⟨-, -, -, -, -, -, e0, e1, -⟩ := index_facts t
  match a with
  | ⟨0, _⟩ => show win0_2.index t (0 : Fin 2) * 1 + 1 * 0 = 0; omega
  | ⟨1, _⟩ => show win0_2.index t (1 : Fin 2) * 4096 + 1 * h.val = h.val; omega

/-- The weight window's block is the whole weight array. -/
theorem read_weight (c : Dev nD) (t : Fin cfg0.N) (h : Fin 4096) (q : Fin 1024) :
    iblk0 V c 3 t (ix2 h q) = V c main_v1 (ix2 h q) := by
  show V c main_v1 (((cfg0.win 3).blk t).view.emb (ix2 h q)) = V c main_v1 (ix2 h q)
  refine congrArg (V c main_v1) (funext fun a => Fin.ext ?_)
  obtain ⟨-, -, -, -, -, -, -, -, e0, e1, -⟩ := index_facts t
  match a with
  | ⟨0, _⟩ => show win0_3.index t (0 : Fin 2) * 4096 + 1 * h.val = h.val; omega
  | ⟨1, _⟩ => show win0_3.index t (1 : Fin 2) * 1024 + 1 * q.val = q.val; omega

/-- The bias window's block is the whole one-row bias array. -/
theorem read_bias (c : Dev nD) (t : Fin cfg0.N) (q : Fin 1024) :
    iblk0 V c 4 t (ix2 (0 : Fin 1) q) = V c main_v4 (ix2 (0 : Fin 1) q) := by
  show V c main_v4 (((cfg0.win 4).blk t).view.emb (ix2 (0 : Fin 1) q)) = V c main_v4 (ix2 (0 : Fin 1) q)
  refine congrArg (V c main_v4) (funext fun a => Fin.ext ?_)
  obtain ⟨-, -, -, -, -, -, -, -, -, -, e0, e1, -⟩ := index_facts t
  match a with
  | ⟨0, _⟩ => show win0_4.index t (0 : Fin 2) * 1 + 1 * 0 = 0; omega
  | ⟨1, _⟩ => show win0_4.index t (1 : Fin 2) * 1024 + 1 * q.val = q.val; omega

/-- Entry `(p, q)` of the output block at point `t` sits at `(256·t + p, q)` of the output array. -/
theorem emb_output (t : Fin cfg0.N) (p : Fin 256) (q : Fin 1024) (r : Fin 8192) (hr : r.val = t.val * 256 + p.val) :
    ((cfg0.win 5).blk t).view.emb (ix2 p q) = ix2 r q := by
  refine funext fun a => Fin.ext ?_
  obtain ⟨-, -, e0, e1, -⟩ := index_facts t
  match a with
  | ⟨0, _⟩ => show win0_5.index t (0 : Fin 2) * 256 + 1 * p.val = r.val; omega
  | ⟨1, _⟩ => show win0_5.index t (1 : Fin 2) * 1024 + 1 * q.val = q.val; omega

/-! ## What a point writes back, the cover, and the array after the run -/

/-- What point `t` writes back is block `t` of the row-wise projection of the entry arrays. -/
theorem flushed_eq (c : Dev nD) (t : Fin cfg0.N) :
    (dat0 V c).flushed 5 t = ((cfg0.win 5).blk t).view.read (Elt Ideal)
      (rows2 (R := 8192) (V c main_v0) (V c main_v2) (V c main_v3) (V c main_v1) (V c main_v4)) := by
  show (cfg0.win 5).cut (grid0.coords t) ((dat0 V c).after 5 t) = _
  rw [after0_5]
  unfold out0_5
  rw [View.canon_unit_zero zero_offsets]
  simp only [View.ld_unit_zero (S := S256x4096) zero_offsets, View.ld_unit_zero (S := S1x4096) zero_offsets,
    View.ld_unit_zero (S := S4096x1024) zero_offsets, View.ld_unit_zero (S := S1x1024) zero_offsets]
  funext y
  obtain ⟨p, q, rfl⟩ : ∃ (p : Fin 256) (q : Fin 1024), y = ix2 p q := ⟨y 0, y 1, eq_ix2 y⟩
  have ht : t.val < 32 := (index_facts t).2.2.2.2.2.2.2.2.2.2.2.2
  have hlt : t.val * 256 + p.val < 8192 := by have := p.isLt; omega
  show k0_pay1 (F := Ideal) (iblk0 V c 0 t) (iblk0 V c 1 t) (iblk0 V c 2 t) (iblk0 V c 3 t) (iblk0 V c 4 t) (ix2 p q)
    = rows2 (R := 8192) (V c main_v0) (V c main_v2) (V c main_v3) (V c main_v1) (V c main_v4) (((cfg0.win 5).blk t).view.emb (ix2 p q))
  rw [emb_output t p q ⟨t.val * 256 + p.val, hlt⟩ rfl]
  refine (payload_apply (iblk0 V c 0 t) (iblk0 V c 1 t) (iblk0 V c 2 t) (iblk0 V c 3 t) (iblk0 V c 4 t) p q).trans ?_
  show _ = proj (fun h => V c main_v0 (ix2 ⟨t.val * 256 + p.val, hlt⟩ h)) (fun h => V c main_v2 (ix2 (0 : Fin 1) h))
    (fun h => V c main_v3 (ix2 (0 : Fin 1) h)) (fun h q => V c main_v1 (ix2 h q)) (fun q => V c main_v4 (ix2 (0 : Fin 1) q)) q
  have e0 : (fun h : Fin 4096 => iblk0 V c 0 t (ix2 p h)) = fun h => V c main_v0 (ix2 ⟨t.val * 256 + p.val, hlt⟩ h) :=
    funext fun h => read_input V c t p h _ rfl
  have e1 : (fun h : Fin 4096 => iblk0 V c 1 t (ix2 (0 : Fin 1) h)) = fun h => V c main_v2 (ix2 (0 : Fin 1) h) :=
    funext fun h => read_scale V c t h
  have e2 : (fun h : Fin 4096 => iblk0 V c 2 t (ix2 (0 : Fin 1) h)) = fun h => V c main_v3 (ix2 (0 : Fin 1) h) :=
    funext fun h => read_shift V c t h
  have e3 : (fun (h : Fin 4096) (q : Fin 1024) => iblk0 V c 3 t (ix2 h q)) = fun h q => V c main_v1 (ix2 h q) :=
    funext fun h => funext fun q => read_weight V c t h q
  have e4 : (fun q : Fin 1024 => iblk0 V c 4 t (ix2 (0 : Fin 1) q)) = fun q => V c main_v4 (ix2 (0 : Fin 1) q) :=
    funext fun q => read_bias V c t q
  rw [e0, e1, e2, e3, e4]

/-- An index of the output array is in point `t`'s block iff each coordinate is in the block's range on its axis. -/
theorem mem_blk (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- Every output index is in some point's block: row `r` is in block `r / 256`. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  have hd : (i 0).val / 256 < cfg0.N := by rw [hN]; omega
  refine ⟨⟨(i 0).val / 256, hd⟩, flush0_5 _, ?_⟩
  rw [mem_blk]
  obtain ⟨-, -, e0, e1, -⟩ := index_facts ⟨(i 0).val / 256, hd⟩
  intro a
  match a with
  | ⟨0, _⟩ =>
    show win0_5.index ⟨(i 0).val / 256, hd⟩ (0 : Fin 2) * 256 ≤ (i 0).val ∧ (i 0).val < win0_5.index ⟨(i 0).val / 256, hd⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, hd⟩ (1 : Fin 2) * 1024 ≤ (i 1).val ∧ (i 1).val < win0_5.index ⟨(i 0).val / 256, hd⟩ (1 : Fin 2) * 1024 + 1024
    rw [e1]; omega

/-- The output array after the region's run: the row-wise projection of the arrays the region was entered with. -/
theorem final (c : Dev nD) :
    (dat0 V c).arrAt 5 cfg0.N = rows2 (R := 8192) (V c main_v0) (V c main_v2) (V c main_v3) (V c main_v1) (V c main_v4) :=
  (dat0 V c).arrAt_eq_of_cover 5 _ (fun t _ => flushed_eq V c t) cover

end Cert.KernelIdeal.Region0

end
-- ==== Proof.Region1Value.lean ====
/-
  The second call's output array after its 32 grid points.  Point t loads rows 256·t … 256·t + 255 of the flattened
  input (all 4096 features) and the whole parameter arrays, and writes rows 256·t … 256·t + 255 of the output; the
  32 blocks tile the 8192 rows.  So the array ends as the row-wise projection of the arrays the region was entered
  with, whatever those are.
-/
import proofs.«138055_j43250320671027_1_alg».proof.Proof.Gen.KernelIdeal.Frame
import proofs.«138055_j43250320671027_1_alg».proof.Proof.BlockValue

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.NormProject Cert.KernelIdeal.Block

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the output move one block of rows per point and stay at
    column block 0; the four parameter windows stay at block (0, 0). -/
theorem index_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ t.val < 32 :=
  (by decide +kernel : ∀ t : Fin grid1.N, _)

/-! ## Each window's block read where the arrays hold it -/

/-- Row `p` of the input block at point `t` is row `256·t + p` of the input array. -/
theorem read_input (c : Dev nD) (t : Fin cfg1.N) (p : Fin 256) (h : Fin 4096) (r : Fin 8192) (hr : r.val = t.val * 256 + p.val) :
    iblk1 V c 0 t (ix2 p h) = V c main_v7 (ix2 r h) := by
  show V c main_v7 (((cfg1.win 0).blk t).view.emb (ix2 p h)) = V c main_v7 (ix2 r h)
  refine congrArg (V c main_v7) (funext fun a => Fin.ext ?_)
  obtain ⟨e0, e1, -⟩ := index_facts t
  match a with
  | ⟨0, _⟩ => show win1_0.index t (0 : Fin 2) * 256 + 1 * p.val = r.val; omega
  | ⟨1, _⟩ => show win1_0.index t (1 : Fin 2) * 4096 + 1 * h.val = h.val; omega

/-- The scale window's block is the whole one-row scale array. -/
theorem read_scale (c : Dev nD) (t : Fin cfg1.N) (h : Fin 4096) :
    iblk1 V c 1 t (ix2 (0 : Fin 1) h) = V c main_v9 (ix2 (0 : Fin 1) h) := by
  show V c main_v9 (((cfg1.win 1).blk t).view.emb (ix2 (0 : Fin 1) h)) = V c main_v9 (ix2 (0 : Fin 1) h)
  refine congrArg (V c main_v9) (funext fun a => Fin.ext ?_)
  obtain ⟨-, -, -, -, e0, e1, -⟩ := index_facts t
  match a with
  | ⟨0, _⟩ => show win1_1.index t (0 : Fin 2) * 1 + 1 * 0 = 0; omega
  | ⟨1, _⟩ => show win1_1.index t (1 : Fin 2) * 4096 + 1 * h.val = h.val; omega

/-- The shift window's block is the whole one-row shift array. -/
theorem read_shift (c : Dev nD) (t : Fin cfg1.N) (h : Fin 4096) :
    iblk1 V c 2 t (ix2 (0 : Fin 1) h) = V c main_v10 (ix2 (0 : Fin 1) h) := by
  show V c main_v10 (((cfg1.win 2).blk t).view.emb (ix2 (0 : Fin 1) h)) = V c main_v10 (ix2 (0 : Fin 1) h)
  refine congrArg (V c main_v10) (funext fun a => Fin.ext ?_)
  obtain ⟨-, -, -, -, -, -, e0, e1, -⟩ := index_facts t
  match a with
  | ⟨0, _⟩ => show win1_2.index t (0 : Fin 2) * 1 + 1 * 0 = 0; omega
  | ⟨1, _⟩ => show win1_2.index t (1 : Fin 2) * 4096 + 1 * h.val = h.val; omega

/-- The weight window's block is the whole weight array. -/
theorem read_weight (c : Dev nD) (t : Fin cfg1.N) (h : Fin 4096) (q : Fin 1024) :
    iblk1 V c 3 t (ix2 h q) = V c main_v8 (ix2 h q) := by
  show V c main_v8 (((cfg1.win 3).blk t).view.emb (ix2 h q)) = V c main_v8 (ix2 h q)
  refine congrArg (V c main_v8) (funext fun a => Fin.ext ?_)
  obtain ⟨-, -, -, -, -, -, -, -, e0, e1, -⟩ := index_facts t
  match a with
  | ⟨0, _⟩ => show win1_3.index t (0 : Fin 2) * 4096 + 1 * h.val = h.val; omega
  | ⟨1, _⟩ => show win1_3.index t (1 : Fin 2) * 1024 + 1 * q.val = q.val; omega

/-- The bias window's block is the whole one-row bias array. -/
theorem read_bias (c : Dev nD) (t : Fin cfg1.N) (q : Fin 1024) :
    iblk1 V c 4 t (ix2 (0 : Fin 1) q) = V c main_v11 (ix2 (0 : Fin 1) q) := by
  show V c main_v11 (((cfg1.win 4).blk t).view.emb (ix2 (0 : Fin 1) q)) = V c main_v11 (ix2 (0 : Fin 1) q)
  refine congrArg (V c main_v11) (funext fun a => Fin.ext ?_)
  obtain ⟨-, -, -, -, -, -, -, -, -, -, e0, e1, -⟩ := index_facts t
  match a with
  | ⟨0, _⟩ => show win1_4.index t (0 : Fin 2) * 1 + 1 * 0 = 0; omega
  | ⟨1, _⟩ => show win1_4.index t (1 : Fin 2) * 1024 + 1 * q.val = q.val; omega

/-- Entry `(p, q)` of the output block at point `t` sits at `(256·t + p, q)` of the output array. -/
theorem emb_output (t : Fin cfg1.N) (p : Fin 256) (q : Fin 1024) (r : Fin 8192) (hr : r.val = t.val * 256 + p.val) :
    ((cfg1.win 5).blk t).view.emb (ix2 p q) = ix2 r q := by
  refine funext fun a => Fin.ext ?_
  obtain ⟨-, -, e0, e1, -⟩ := index_facts t
  match a with
  | ⟨0, _⟩ => show win1_5.index t (0 : Fin 2) * 256 + 1 * p.val = r.val; omega
  | ⟨1, _⟩ => show win1_5.index t (1 : Fin 2) * 1024 + 1 * q.val = q.val; omega

/-! ## What a point writes back, the cover, and the array after the run -/

/-- What point `t` writes back is block `t` of the row-wise projection of the entry arrays. -/
theorem flushed_eq (c : Dev nD) (t : Fin cfg1.N) :
    (dat1 V c).flushed 5 t = ((cfg1.win 5).blk t).view.read (Elt Ideal)
      (rows2 (R := 8192) (V c main_v7) (V c main_v9) (V c main_v10) (V c main_v8) (V c main_v11)) := by
  show (cfg1.win 5).cut (grid1.coords t) ((dat1 V c).after 5 t) = _
  rw [after1_5]
  unfold out1_5
  rw [View.canon_unit_zero zero_offsets]
  simp only [View.ld_unit_zero (S := S256x4096) zero_offsets, View.ld_unit_zero (S := S1x4096) zero_offsets,
    View.ld_unit_zero (S := S4096x1024) zero_offsets, View.ld_unit_zero (S := S1x1024) zero_offsets]
  funext y
  obtain ⟨p, q, rfl⟩ : ∃ (p : Fin 256) (q : Fin 1024), y = ix2 p q := ⟨y 0, y 1, eq_ix2 y⟩
  have ht : t.val < 32 := (index_facts t).2.2.2.2.2.2.2.2.2.2.2.2
  have hlt : t.val * 256 + p.val < 8192 := by have := p.isLt; omega
  show k1_pay1 (F := Ideal) (iblk1 V c 0 t) (iblk1 V c 1 t) (iblk1 V c 2 t) (iblk1 V c 3 t) (iblk1 V c 4 t) (ix2 p q)
    = rows2 (R := 8192) (V c main_v7) (V c main_v9) (V c main_v10) (V c main_v8) (V c main_v11) (((cfg1.win 5).blk t).view.emb (ix2 p q))
  rw [emb_output t p q ⟨t.val * 256 + p.val, hlt⟩ rfl]
  refine (payload1_apply (iblk1 V c 0 t) (iblk1 V c 1 t) (iblk1 V c 2 t) (iblk1 V c 3 t) (iblk1 V c 4 t) p q).trans ?_
  show _ = proj (fun h => V c main_v7 (ix2 ⟨t.val * 256 + p.val, hlt⟩ h)) (fun h => V c main_v9 (ix2 (0 : Fin 1) h))
    (fun h => V c main_v10 (ix2 (0 : Fin 1) h)) (fun h q => V c main_v8 (ix2 h q)) (fun q => V c main_v11 (ix2 (0 : Fin 1) q)) q
  have e0 : (fun h : Fin 4096 => iblk1 V c 0 t (ix2 p h)) = fun h => V c main_v7 (ix2 ⟨t.val * 256 + p.val, hlt⟩ h) :=
    funext fun h => read_input V c t p h _ rfl
  have e1 : (fun h : Fin 4096 => iblk1 V c 1 t (ix2 (0 : Fin 1) h)) = fun h => V c main_v9 (ix2 (0 : Fin 1) h) :=
    funext fun h => read_scale V c t h
  have e2 : (fun h : Fin 4096 => iblk1 V c 2 t (ix2 (0 : Fin 1) h)) = fun h => V c main_v10 (ix2 (0 : Fin 1) h) :=
    funext fun h => read_shift V c t h
  have e3 : (fun (h : Fin 4096) (q : Fin 1024) => iblk1 V c 3 t (ix2 h q)) = fun h q => V c main_v8 (ix2 h q) :=
    funext fun h => funext fun q => read_weight V c t h q
  have e4 : (fun q : Fin 1024 => iblk1 V c 4 t (ix2 (0 : Fin 1) q)) = fun q => V c main_v11 (ix2 (0 : Fin 1) q) :=
    funext fun q => read_bias V c t q
  rw [e0, e1, e2, e3, e4]

/-- An index of the output array is in point `t`'s block iff each coordinate is in the block's range on its axis. -/
theorem mem_blk (t : Fin cfg1.N) (i : S8192x1024.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v12).slice (win1_5.rect t)).set ↔ _
  rw [View.set_slice_whole, Rect.mem_set_unit]
  exact Iff.rfl

/-- Every output index is in some point's block: row `r` is in block `r / 256`. -/
theorem cover (i : S8192x1024.Idx) : ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 32 := N_1
  have hd : (i 0).val / 256 < cfg1.N := by rw [hN]; omega
  refine ⟨⟨(i 0).val / 256, hd⟩, flush1_5 _, ?_⟩
  rw [mem_blk]
  obtain ⟨-, -, e0, e1, -⟩ := index_facts ⟨(i 0).val / 256, hd⟩
  intro a
  match a with
  | ⟨0, _⟩ =>
    show win1_5.index ⟨(i 0).val / 256, hd⟩ (0 : Fin 2) * 256 ≤ (i 0).val ∧ (i 0).val < win1_5.index ⟨(i 0).val / 256, hd⟩ (0 : Fin 2) * 256 + 256
    rw [e0]; show (i 0).val / 256 * 256 ≤ (i 0).val ∧ (i 0).val < (i 0).val / 256 * 256 + 256; omega
  | ⟨1, _⟩ =>
    show win1_5.index ⟨(i 0).val / 256, hd⟩ (1 : Fin 2) * 1024 ≤ (i 1).val ∧ (i 1).val < win1_5.index ⟨(i 0).val / 256, hd⟩ (1 : Fin 2) * 1024 + 1024
    rw [e1]; omega

/-- The output array after the region's run: the row-wise projection of the arrays the region was entered with. -/
theorem final (c : Dev nD) :
    (dat1 V c).arrAt 5 cfg1.N = rows2 (R := 8192) (V c main_v7) (V c main_v9) (V c main_v10) (V c main_v8) (V c main_v11) :=
  (dat1 V c).arrAt_eq_of_cover 5 _ (fun t _ => flushed_eq V c t) cover

end Cert.KernelIdeal.Region1

end
-- ==== Proof.WholeValue.lean ====
/-
  The two results of the kernel program as functions of its arguments.

  Before each call the host flattens the 2 × 4096 × 4096 input to 8192 rows, makes one-row arrays of the scale, the
  shift and the bias, and rounds the weight to bf16 (the identity on extended reals); after it, it unflattens the
  8192 × 1024 output.  Nothing the second call reads is written by the first.  So each result is the row-wise
  projection of its own group of arguments.
-/
import proofs.«138055_j43250320671027_1_alg».proof.Proof.Gen.KernelIdeal.Frame
import proofs.«138055_j43250320671027_1_alg».proof.Proof.Region0Value
import proofs.«138055_j43250320671027_1_alg».proof.Proof.Region1Value
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.NormProject

variable (m : (ℓ : Loc nD τ sig) → Buf (Elt Ideal) ℓ) (ρ : Dev nD → PrngReg)

/-! ## What the first call is entered with -/

theorem entry0_input (c : Dev nD) :
    V1 m ρ c main_v0 = shapeCast S8192x4096 (m ((c : Thread nD τ).loc main_arg0)) shapeCasts_S2x4096x4096_S8192x4096 := by
  show StableHlo.after hostOps0 (W0 m ρ c) (Proc.devRef .tc main_v0) = _
  dsimp only [hostOps0]
  after_results
  rfl

theorem entry0_weight (c : Dev nD) :
    (V1 m ρ c main_v1 : S4096x1024.Idx → EReal) = (m ((c : Thread nD τ).loc main_arg4) : S4096x1024.Idx → EReal) := by
  show StableHlo.after hostOps0 (W0 m ρ c) (Proc.devRef .tc main_v1) = _
  dsimp only [hostOps0]
  after_results
  rfl

theorem entry0_scale (c : Dev nD) :
    V1 m ρ c main_v2 = shapeCast S1x4096 (m ((c : Thread nD τ).loc main_arg2)) shapeCasts_S4096_S1x4096 := by
  show StableHlo.after hostOps0 (W0 m ρ c) (Proc.devRef .tc main_v2) = _
  dsimp only [hostOps0]
  after_results
  rfl

theorem entry0_shift (c : Dev nD) :
    V1 m ρ c main_v3 = shapeCast S1x4096 (m ((c : Thread nD τ).loc main_arg3)) shapeCasts_S4096_S1x4096 := by
  show StableHlo.after hostOps0 (W0 m ρ c) (Proc.devRef .tc main_v3) = _
  dsimp only [hostOps0]
  after_results
  rfl

theorem entry0_bias (c : Dev nD) :
    V1 m ρ c main_v4 = shapeCast S1x1024 (m ((c : Thread nD τ).loc main_arg5)) shapeCasts_S1024_S1x1024 := by
  show StableHlo.after hostOps0 (W0 m ρ c) (Proc.devRef .tc main_v4) = _
  dsimp only [hostOps0]
  after_results
  rfl

/-! ## What the second call is entered with: the first call and its host lines write none of these arguments -/

theorem entry1_input (c : Dev nD) :
    V3 m ρ c main_v7 = shapeCast S8192x4096 (m ((c : Thread nD τ).loc main_arg1)) shapeCasts_S2x4096x4096_S8192x4096 := by
  show StableHlo.after hostOps1 (W2 m ρ c) (Proc.devRef .tc main_v7) = _
  dsimp only [hostOps1]
  after_results
  rw [W2_of_ne m ρ c main_arg1 (by decide)]
  dsimp only [W1, hostOps0]
  after_results
  rfl

theorem entry1_weight (c : Dev nD) :
    (V3 m ρ c main_v8 : S4096x1024.Idx → EReal) = (m ((c : Thread nD τ).loc main_arg8) : S4096x1024.Idx → EReal) := by
  show StableHlo.after hostOps1 (W2 m ρ c) (Proc.devRef .tc main_v8) = _
  dsimp only [hostOps1]
  after_results
  rw [W2_of_ne m ρ c main_arg8 (by decide)]
  dsimp only [W1, hostOps0]
  after_results
  rfl

theorem entry1_scale (c : Dev nD) :
    V3 m ρ c main_v9 = shapeCast S1x4096 (m ((c : Thread nD τ).loc main_arg6)) shapeCasts_S4096_S1x4096 := by
  show StableHlo.after hostOps1 (W2 m ρ c) (Proc.devRef .tc main_v9) = _
  dsimp only [hostOps1]
  after_results
  rw [W2_of_ne m ρ c main_arg6 (by decide)]
  dsimp only [W1, hostOps0]
  after_results
  rfl

theorem entry1_shift (c : Dev nD) :
    V3 m ρ c main_v10 = shapeCast S1x4096 (m ((c : Thread nD τ).loc main_arg7)) shapeCasts_S4096_S1x4096 := by
  show StableHlo.after hostOps1 (W2 m ρ c) (Proc.devRef .tc main_v10) = _
  dsimp only [hostOps1]
  after_results
  rw [W2_of_ne m ρ c main_arg7 (by decide)]
  dsimp only [W1, hostOps0]
  after_results
  rfl

theorem entry1_bias (c : Dev nD) :
    V3 m ρ c main_v11 = shapeCast S1x1024 (m ((c : Thread nD τ).loc main_arg9)) shapeCasts_S1024_S1x1024 := by
  show StableHlo.after hostOps1 (W2 m ρ c) (Proc.devRef .tc main_v11) = _
  dsimp only [hostOps1]
  after_results
  rw [W2_of_ne m ρ c main_arg9 (by decide)]
  dsimp only [W1, hostOps0]
  after_results
  rfl

/-! ## The result buffers at the last boundary -/

/-- The first result is the first call's output array, unflattened; nothing after that host line writes it. -/
theorem exit_first (c : Dev nD) :
    W5 m ρ c (Proc.devRef .tc main_v6)
      = shapeCast S2x4096x1024 ((dat0 (V1 m ρ) c).arrAt 5 cfg0.N) shapeCasts_S8192x1024_S2x4096x1024 := by
  show StableHlo.after hostOps2 (W4 m ρ c) (Proc.devRef .tc main_v6) = _
  dsimp only [hostOps2]
  after_results
  rw [W4_of_ne m ρ c main_v6 (by decide)]
  show StableHlo.after hostOps1 (W2 m ρ c) (Proc.devRef .tc main_v6) = _
  dsimp only [hostOps1]
  after_results
  rw [W2_arr m ρ c 5]
  rfl

/-- The second result is the second call's output array, unflattened. -/
theorem exit_second (c : Dev nD) :
    W5 m ρ c (Proc.devRef .tc main_v13)
      = shapeCast S2x4096x1024 ((dat1 (V3 m ρ) c).arrAt 5 cfg1.N) shapeCasts_S8192x1024_S2x4096x1024 := by
  show StableHlo.after hostOps2 (W4 m ρ c) (Proc.devRef .tc main_v13) = _
  dsimp only [hostOps2]
  after_results
  rw [W4_arr m ρ c 5]
  rfl

/-! ## The closed forms -/

/-- The first result: the row-wise projection of the first group of arguments. -/
theorem first_eq (c : Dev nD) :
    W5 m ρ c (Proc.devRef .tc main_v6)
      = rows3 (m ((c : Thread nD τ).loc main_arg0)) (m ((c : Thread nD τ).loc main_arg2)) (m ((c : Thread nD τ).loc main_arg3))
          (m ((c : Thread nD τ).loc main_arg4)) (m ((c : Thread nD τ).loc main_arg5)) := by
  rw [exit_first, Region0.final (V1 m ρ) c, entry0_input, entry0_scale, entry0_shift, entry0_weight, entry0_bias]
  exact unflatten_rows2 _ _ _ _ _ _ _ _ _

/-- The second result: the same of the second group. -/
theorem second_eq (c : Dev nD) :
    W5 m ρ c (Proc.devRef .tc main_v13)
      = rows3 (m ((c : Thread nD τ).loc main_arg1)) (m ((c : Thread nD τ).loc main_arg6)) (m ((c : Thread nD τ).loc main_arg7))
          (m ((c : Thread nD τ).loc main_arg8)) (m ((c : Thread nD τ).loc main_arg9)) := by
  rw [exit_second, Region1.final (V3 m ρ) c, entry1_input, entry1_scale, entry1_shift, entry1_weight, entry1_bias]
  exact unflatten_rows2 _ _ _ _ _ _ _ _ _

end Cert.KernelIdeal.Whole

end
-- ==== Proof.lean ====
/-
  Two independent branches, each a LayerNorm over the 4096 features of every row followed by a 4096 → 1024
  projection with bias, computed by one Pallas call per branch over 32 blocks of 256 rows, against the same in plain jnp.

  At the ideal instance both programs apply, row by row, the same operations in the same order with the same two
  float words (the divisor 4096 and the variance offset): the kernel's lane sums and its matrix product into a zero
  accumulator are the plain sums the host's reduce and dot_general are, the bf16 roundings are the identity, and the
  host's flattening of the rows before each call and unflattening after it carry every row to itself.  So each of the
  two results is one function of its own five arguments (`Cert.NormProject.rows3`), on both sides.

  The kernel's frames are the generated ones; the reference's frame is its generated run with the results dropped;
  the idealization rewrote nothing, so `preserves` is trivial.
-/
import proofs.«138055_j43250320671027_1_alg».proof.Defs
import proofs.«138055_j43250320671027_1_alg».proof.Proof.Gen.Kernel
import proofs.«138055_j43250320671027_1_alg».proof.Proof.Gen.Kernel.Skeleton
import proofs.«138055_j43250320671027_1_alg».proof.Proof.Gen.Kernel.Launch
import proofs.«138055_j43250320671027_1_alg».proof.Proof.Gen.Kernel.Points
import proofs.«138055_j43250320671027_1_alg».proof.Proof.Gen.Kernel.Frame
import proofs.«138055_j43250320671027_1_alg».proof.Proof.Gen.KernelIdeal
import proofs.«138055_j43250320671027_1_alg».proof.Proof.Gen.KernelIdeal.Skeleton
import proofs.«138055_j43250320671027_1_alg».proof.Proof.Gen.KernelIdeal.Launch
import proofs.«138055_j43250320671027_1_alg».proof.Proof.Gen.KernelIdeal.Points
import proofs.«138055_j43250320671027_1_alg».proof.Proof.Gen.KernelIdeal.Frame
import proofs.«138055_j43250320671027_1_alg».proof.Proof.Gen.ReferenceIdeal
import proofs.«138055_j43250320671027_1_alg».proof.Proof.Gen.ReferenceIdeal.Run
import proofs.«138055_j43250320671027_1_alg».proof.Proof.Gen.ReferenceIdeal.Read
import proofs.«138055_j43250320671027_1_alg».proof.Proof.Gen.Pre_finite_inputs
import proofs.«138055_j43250320671027_1_alg».proof.Proof.NormProject
import proofs.«138055_j43250320671027_1_alg».proof.Proof.RefRead
import proofs.«138055_j43250320671027_1_alg».proof.Proof.KernelRun
import proofs.«138055_j43250320671027_1_alg».proof.Proof.WholeValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with each result at the row-wise projection of its own arguments. -/
theorem algebraic : Cert.algebraic_KernelIdeal_ReferenceIdeal := by
  intro m ρ m' ρ' _ hagree
  refine ⟨fun c => Cert.NormProject.rows3 (m ((c : Thread Cert.KernelIdeal.nD Cert.KernelIdeal.τ).loc Cert.KernelIdeal.main_arg0))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5)),
      fun c => Cert.NormProject.rows3 (m ((c : Thread Cert.KernelIdeal.nD Cert.KernelIdeal.τ).loc Cert.KernelIdeal.main_arg1))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
        (m ((c : Thread Cert.KernelIdeal.nD Cert.KernelIdeal.τ).loc Cert.KernelIdeal.main_arg9)), ?_, ?_⟩
  · refine (θ_run Cert.KernelIdeal.defs _ _).mono (fun r h c => ?_) (Cert.KernelIdeal.Results.run_results (F := Ideal) m ρ)
    obtain ⟨h6, h13, hargs⟩ := h c
    exact ⟨h6.trans (Cert.KernelIdeal.Whole.first_eq m ρ c), h13.trans (Cert.KernelIdeal.Whole.second_eq m ρ c), hargs⟩
  · refine (θ_run Cert.ReferenceIdeal.defs _ _).mono (fun r h c => ?_) (Cert.ReferenceIdeal.Value.run (F := Ideal) m' ρ')
    obtain ⟨h27, h55, hargs⟩ := h c
    obtain ⟨a0, a1, a2, a3, a4, a5, a6, a7, a8, a9⟩ := hagree c
    refine ⟨?_, ?_, hargs⟩
    · rw [h27, Cert.ReferenceIdeal.Read.val_main_v27_eq, Cert.ReferenceIdeal.RefValue.result_eq, a0, a2, a3, a4, a5]
    · rw [h55, Cert.ReferenceIdeal.Read.val_main_v55_eq, Cert.ReferenceIdeal.RefValue.result_eq', a1, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
